-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S200x10000 : Shape := ⟨2, ![200, 10000]⟩
abbrev S200x128 : Shape := ⟨2, ![200, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x128_S200x128_0_0 : ∀ a, (![0, 0] : Fin 2 → Nat) a + S200x128.size a ≤ S200x128.size a
  h_S200x128 : 0 < S200x128.numel
  shapeCasts_S10000x128_S1x10000x128 : S10000x128.ShapeCasts S1x10000x128
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x1x1, .f32⟩
  | .hbm, ⟨14, _⟩ => ⟨S1x10000x128, .f32⟩
  | .hbm, ⟨15, _⟩ => ⟨S1x10000x128, .f32⟩
  | .hbm, ⟨16, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Spec.lean ====
/-
  One graph-convolution layer over the extended reals, entry by entry.

  For node features `S` (10000 nodes, 128 features), weights `W` (128 outputs by 128 inputs), a bias `b`,
  an adjacency matrix `A` (10000 by 10000) and a slope `a`:
    feature j q = (sum over d of S j d * W q d) + b q          -- the linear layer, row j, output q
    mixed   i q = sum over j of A i j * feature j q            -- row i of the adjacency against column q
    layer   i q = mixed i q if mixed i q >= 0, else a * mixed i q   -- the parametric rectifier
  Entry (i, q) of `mixed` depends on row i of `A` only, so taking the rows 200 at a time or all at once gives the
  same entries, and no sum is regrouped: nothing here needs the entries to be finite.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- The linear layer at node `j`, output feature `q`: row `j` of the features against row `q` of the weights, plus
    the bias at `q`. -/
def feature (S : Fin 10000 → Fin 128 → EReal) (W : Fin 128 → Fin 128 → EReal) (b : Fin 128 → EReal)
    (j : Fin 10000) (q : Fin 128) : EReal :=
  (∑ d : Fin 128, S j d * W q d) + b q

/-- Row `i` of the adjacency against column `q` of the transformed features. -/
def mixed (A : Fin 10000 → Fin 10000 → EReal) (H : Fin 10000 → Fin 128 → EReal) (i : Fin 10000) (q : Fin 128) : EReal :=
  ∑ j : Fin 10000, A i j * H j q

/-- The parametric rectifier: `o` where `o ≥ 0`, else `a * o`. The comparison is the ordered one of the extended
    reals against the value of the zero word. -/
def rectify (a o : EReal) : EReal :=
  Scalar.select (FloatOps.cmpf (F := Ideal) (φ := .f32) .oge o (Ideal.ofBits .f32 0x00000000#32)) o (a * o)

/-- One entry of the layer's output. -/
def layer (A : Fin 10000 → Fin 10000 → EReal) (S : Fin 10000 → Fin 128 → EReal) (W : Fin 128 → Fin 128 → EReal)
    (b : Fin 128 → EReal) (a : EReal) (i : Fin 10000) (q : Fin 128) : EReal :=
  rectify a (mixed A (feature S W b) i q)

/-- The whole result, as a function of the five argument arrays in their argument shapes (a leading batch axis of
    extent one on the features, the adjacency and the result). -/
def result (seq : (⟨3, ![1, 10000, 128]⟩ : Shape).Idx → EReal) (adj : (⟨3, ![1, 10000, 10000]⟩ : Shape).Idx → EReal)
    (W : (⟨2, ![128, 128]⟩ : Shape).Idx → EReal) (b : (⟨1, ![128]⟩ : Shape).Idx → EReal)
    (a : (⟨1, ![1]⟩ : Shape).Idx → EReal) : (⟨3, ![1, 10000, 128]⟩ : Shape).Idx → EReal := fun i =>
  layer (fun r k => adj (ix3 (0 : Fin 1) r k)) (fun k d => seq (ix3 (0 : Fin 1) k d)) (fun q d => W (ix2 q d))
    (fun q => b (ix1 q)) (a (ix1 (0 : Fin 1))) (i 1) (i 2)

end Cert.GraphConv

end
-- ==== Proof.RefSide.lean ====
/-
  The reference, entry by entry: its last stage is the layer of `Spec.lean`.

  Stage by stage: the first product is, at (0, k, q), the sum over d of seq (0, k, d) * W (q, d); the bias is
  broadcast along the feature axis; the second product is, at (0, n, q), the sum over k of adj (0, n, k) times the
  biased first product at (0, k, q); the rectifier compares with the zero word and scales by the one slope.
-/
import proofs.«144778_g11579231830147_cont_sun_c4_469_2_alg».proof.Defs
import proofs.«144778_g11579231830147_cont_sun_c4_469_2_alg».proof.Proof.Gen.ReferenceIdeal
import proofs.«144778_g11579231830147_cont_sun_c4_469_2_alg».proof.Proof.Gen.ReferenceIdeal.Run
import proofs.«144778_g11579231830147_cont_sun_c4_469_2_alg».proof.Proof.Gen.ReferenceIdeal.Read
import proofs.«144778_g11579231830147_cont_sun_c4_469_2_alg».proof.Proof.Spec

noncomputable section

namespace Cert.ReferenceIdeal.AtIndex

open Cert.ReferenceIdeal Cert.ReferenceIdeal.Read Idealize.ShloMosaic Idealize.ShloMosaic.ValueIdx Cert.GraphConv

/-- The second product reads the adjacency at (0, n, k) … -/
theorem adj_index (n : Fin 10000) (q : Fin 128) (k : Fin 10000) :
    lidx_main_v4 (ix3 (0 : Fin 1) n q) k = ix3 (0 : Fin 1) n k :=
  funext fun a => Fin.ext (by match a with | ⟨0, _⟩ => rfl | ⟨1, _⟩ => rfl | ⟨2, _⟩ => rfl)

/-- … and the biased first product at (0, k, q). -/
theorem hidden_index (n : Fin 10000) (q : Fin 128) (k : Fin 10000) :
    ridx_main_v4 (ix3 (0 : Fin 1) n q) k = ix3 (0 : Fin 1) k q :=
  funext fun a => Fin.ext (by match a with | ⟨0, _⟩ => rfl | ⟨1, _⟩ => rfl | ⟨2, _⟩ => rfl)

/-- The first product reads the features at (0, k, d) … -/
theorem seq_index (k : Fin 10000) (q : Fin 128) (d : Fin 128) :
    lidx_main_v0 (ix3 (0 : Fin 1) k q) d = ix3 (0 : Fin 1) k d :=
  funext fun a => Fin.ext (by match a with | ⟨0, _⟩ => rfl | ⟨1, _⟩ => rfl | ⟨2, _⟩ => rfl)

/-- … and the weights at (q, d): row q of the weights, the transposed product. -/
theorem weight_index (k : Fin 10000) (q : Fin 128) (d : Fin 128) :
    ridx_main_v0 (ix3 (0 : Fin 1) k q) d = ix2 q d :=
  funext fun a => Fin.ext (by match a with | ⟨0, _⟩ => rfl | ⟨1, _⟩ => rfl)

/-- The two broadcasts of the bias read it at q. -/
theorem bias_index (k : Fin 10000) (q : Fin 128) :
    idx_main_v1 (idx_main_v2 (ix3 (0 : Fin 1) k q)) = ix1 q :=
  funext fun a => Fin.ext (by match a with | ⟨0, _⟩ => rfl)

/-- The two broadcasts of the slope read its one entry. -/
theorem slope_index (n : Fin 10000) (q : Fin 128) :
    idx_main_v7 (idx_main_v8 (ix3 (0 : Fin 1) n q)) = ix1 (0 : Fin 1) :=
  funext fun a => Fin.ext (by match a with | ⟨0, _⟩ => rfl)

/-- The reference's result is the layer of the five arguments, entry by entry. -/
theorem reference_eq (x0 : (⟨S1x10000x128, .f32⟩ : BufTy).Contents (Elt Ideal))
    (x1 : (⟨S1x10000x10000, .f32⟩ : BufTy).Contents (Elt Ideal)) (x2 : (⟨S128x128, .f32⟩ : BufTy).Contents (Elt Ideal))
    (x3 : (⟨S128, .f32⟩ : BufTy).Contents (Elt Ideal)) (x4 : (⟨S1, .f32⟩ : BufTy).Contents (Elt Ideal)) :
    val_main_v10 (F := Ideal) x0 x1 x2 x3 x4 = result x0 x1 x2 x3 x4 := by
  funext i
  obtain ⟨u, n, q, rfl⟩ : ∃ (u : Fin 1) (n : Fin 10000) (q : Fin 128), i = ix3 u n q := ⟨i 0, i 1, i 2, eq_ix3 i⟩
  obtain rfl : u = 0 := Subsingleton.elim _ _
  rw [val_main_v10_apply, val_main_v6_apply, val_main_v9_apply, val_main_v5_apply, val_main_cst_apply,
    val_main_v8_apply, val_main_v7_apply, val_main_v4_apply]
  simp only [val_main_v3_apply, val_main_v0_apply, val_main_v2_apply, val_main_v1_apply, adj_index, hidden_index,
    seq_index, weight_index, bias_index, slope_index]
  rfl

end Cert.ReferenceIdeal.AtIndex

end
-- ==== Proof.KernelPieces.lean ====
/-
  What one grid point of the kernel leaves behind, as values.

  The carried buffer holds the transformed features `H = S · Wᵀ + b` (the whole 10000 × 128 array). The first point
  computes it from the three resident blocks and stores it; every point then multiplies its 200 × 10000 block of the
  adjacency against whatever the carried buffer holds and rectifies. So:
    first point:  carried := linear (S, W, b);  output block := rectified (A-block · linear (S, W, b))
    later points: carried unchanged;            output block := rectified (A-block · carried)
  `k0_pay1` is the linear layer as one term of the three blocks, `k0_pay2` the rectified product as one term of
  the adjacency block, the carried array and the slope. Each lemma holds at every instance of the float operations.
-/
import proofs.«144778_g11579231830147_cont_sun_c4_469_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Carried
open Cert.KernelIdeal Cert.KernelIdeal.Gen
variable {F : FTy → Type} [FloatOps F]

/-- The zero offsets of a whole-block access. -/
theorem hz : (![0, 0] : Fin 2 → Nat) = fun _ => 0 := funext fun a => by fin_cases a <;> rfl

/-- At the first point the carried buffer ends at the linear layer of the three resident blocks: its one store covers
    it, and the store's operands are whole-buffer loads of the inputs. -/
theorem carried_first (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S1x1 .f32) (h4 : a4.IsWhole) (a5 : Memref sig .tc .vmem S200x10000 .f32) (h5 : a5.IsWhole) (a6 : Memref sig .tc .vmem S200x128 .f32) (h6 : a6.IsWhole) (a7 : Memref sig .tc .vmem S10000x128 .bf16) (h7 : a7.IsWhole) (hc : cond0_0 i) (x0 : Vec F S10000x128 .f32) (x1 : Vec F S128x128 .f32) (x2 : Vec F S1x128 .f32) (x3 : Vec F S1x1 .f32) (x4 : Vec F S200x10000 .f32) :
    sout0_A_0 c i a1 h1 a2 h2 a3 h3 a4 h4 a5 h5 a6 h6 a7 h7 hc x0 x1 x2 x3 x4 = k0_pay1 x0 x1 x2 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero (S := S10000x128) hz]
  simp only [View.readAt_eq_ld, h1.read_unread, h2.read_unread, h3.read_unread, View.ld_unit_zero (S := S10000x128) hz,
    View.ld_unit_zero (S := S128x128) hz, View.ld_unit_zero (S := S1x128) hz]

/-- At the first point the output block is the rectified product of the adjacency block with the linear layer just
    stored: the load of the carried buffer reads back the store before it. -/
theorem block_first (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S1x1 .f32) (h4 : a4.IsWhole) (a5 : Memref sig .tc .vmem S200x10000 .f32) (h5 : a5.IsWhole) (a6 : Memref sig .tc .vmem S200x128 .f32) (h6 : a6.IsWhole) (a7 : Memref sig .tc .vmem S10000x128 .bf16) (h7 : a7.IsWhole) (hc : cond0_0 i) (x0 : Vec F S10000x128 .f32) (x1 : Vec F S128x128 .f32) (x2 : Vec F S1x128 .f32) (x3 : Vec F S1x1 .f32) (x4 : Vec F S200x10000 .f32) :
    out0_A_5 c i a1 h1 a2 h2 a3 h3 a4 h4 a5 h5 a6 h6 a7 h7 hc x0 x1 x2 x3 x4 = k0_pay2 x4 (k0_pay1 x0 x1 x2) x3 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero (S := S200x128) hz]
  simp only [View.readAt_eq_ld, h1.read_unread, h2.read_unread, h3.read_unread, h4.read_unread, h5.read_unread,
    View.readCov_unit_zero (S := S10000x128) _ hz, View.ld_unit_zero (S := S10000x128) hz,
    View.ld_unit_zero (S := S128x128) hz, View.ld_unit_zero (S := S1x128) hz, View.ld_unit_zero (S := S1x1) hz,
    View.ld_unit_zero (S := S200x10000) hz]

/-- At a later point the output block is the rectified product of the adjacency block with what the carried buffer
    held on entry. -/
theorem block_later (c : Dev nD) (i : grid0.Coords) (a1 : Memref sig .tc .vmem S10000x128 .f32) (h1 : a1.IsWhole) (a2 : Memref sig .tc .vmem S128x128 .f32) (h2 : a2.IsWhole) (a3 : Memref sig .tc .vmem S1x128 .f32) (h3 : a3.IsWhole) (a4 : Memref sig .tc .vmem S1x1 .f32) (h4 : a4.IsWhole) (a5 : Memref sig .tc .vmem S200x10000 .f32) (h5 : a5.IsWhole) (a6 : Memref sig .tc .vmem S200x128 .f32) (h6 : a6.IsWhole) (a7 : Memref sig .tc .vmem S10000x128 .bf16) (h7 : a7.IsWhole) (hc : ¬cond0_0 i) (x0 : Vec F S10000x128 .f32) (x1 : Vec F S128x128 .f32) (x2 : Vec F S1x128 .f32) (x3 : Vec F S1x1 .f32) (x4 : Vec F S200x10000 .f32) (xs : Vec F S10000x128 .bf16) :
    out0_B_5 c i a1 h1 a2 h2 a3 h3 a4 h4 a5 h5 a6 h6 a7 h7 hc x0 x1 x2 x3 x4 xs = k0_pay2 x4 xs x3 := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  sl_unfold_words
  rw [View.canon_unit_zero (S := S200x128) hz]
  simp only [View.readAt_eq_ld, h4.read_unread, h5.read_unread, h7.read_unread,
    View.ld_unit_zero (S := S10000x128) hz, View.ld_unit_zero (S := S1x1) hz, View.ld_unit_zero (S := S200x10000) hz]

end Cert.KernelIdeal.Carried
end
-- ==== Proof.KernelPayload.lean ====
/-
  The kernel's two stored terms, read entry by entry over the extended reals.

  The linear layer at (j, q): the first matrix product contracts the feature axis of the node features with the
  INPUT axis of the weights (both operands' axis 1), so it reads row j of the features against row q of the weights;
  the bias row is broadcast over the nodes. The changes of float format are the identity on the extended reals.
  The rectified product at (p, q): the second product contracts the adjacency block's axis 1 with the carried array's
  axis 0, so it reads row p of the block against column q of the carried array; the zero accumulator adds nothing.
-/
import proofs.«144778_g11579231830147_cont_sun_c4_469_2_alg».proof.Proof.Gen.KernelIdeal.Skeleton
import proofs.«144778_g11579231830147_cont_sun_c4_469_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.ValueIdx

namespace Cert.KernelIdeal.AtIndex
open Cert.KernelIdeal Cert.KernelIdeal.Gen Cert.GraphConv

/-! ## The first product: features [10000, 128] against weights [128, 128], both contracted on axis 1 -/

theorem lin_lhs_0 (i : S10000x128.Idx) (k : dot_S10000x128_S128x128_S10000x128_1_1_0_0_n_n.contr.Idx) :
    (dot_S10000x128_S128x128_S10000x128_1_1_0_0_n_n.lhsIdx i k 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lin_lhs_1 (i : S10000x128.Idx) (k : dot_S10000x128_S128x128_S10000x128_1_1_0_0_n_n.contr.Idx) :
    (dot_S10000x128_S128x128_S10000x128_1_1_0_0_n_n.lhsIdx i k 1).val = (k ⟨0, by decide⟩).val :=
  dot_S10000x128_S128x128_S10000x128_1_1_0_0_n_n.lhsIdx_val_of_single rfl i k
theorem lin_rhs_0 (i : S10000x128.Idx) (k : dot_S10000x128_S128x128_S10000x128_1_1_0_0_n_n.contr.Idx) :
    (dot_S10000x128_S128x128_S10000x128_1_1_0_0_n_n.rhsIdx i k 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem lin_rhs_1 (i : S10000x128.Idx) (k : dot_S10000x128_S128x128_S10000x128_1_1_0_0_n_n.contr.Idx) :
    (dot_S10000x128_S128x128_S10000x128_1_1_0_0_n_n.rhsIdx i k 1).val = (k ⟨0, by decide⟩).val :=
  dot_S10000x128_S128x128_S10000x128_1_1_0_0_n_n.rhsIdx_val_of_single rfl i k

/-- The first product into a zero accumulator, at (j, q): row j of the left operand against ROW q of the right. -/
theorem lin_matmul_apply (l : FVec Ideal S10000x128 .bf16) (r : FVec Ideal S128x128 .bf16) (j : Fin 10000) (q : Fin 128) :
    matmul dot_S10000x128_S128x128_S10000x128_1_1_0_0_n_n none l r (constant (F := Ideal) S10000x128 .f32 0x00000000#32) (ix2 j q)
      = ∑ d : Fin 128, l (ix2 j d) * r (ix2 q d) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 j q) ((contrEquiv1 dot_S10000x128_S128x128_S10000x128_1_1_0_0_n_n 128 rfl rfl).symm k) = ix2 j k := funext fun a => Fin.ext (by
    match a with
    | ⟨0, _⟩ => exact lin_lhs_0 _ _
    | ⟨1, _⟩ => exact (lin_lhs_1 _ _).trans hk)
  have er : dot_S10000x128_S128x128_S10000x128_1_1_0_0_n_n.rhsIdx (ix2 j q) ((contrEquiv1 dot_S10000x128_S128x128_S10000x128_1_1_0_0_n_n 128 rfl rfl).symm k) = ix2 q k := funext fun a => Fin.ext (by
    match a with
    | ⟨0, _⟩ => exact lin_rhs_0 _ _
    | ⟨1, _⟩ => exact (lin_rhs_1 _ _).trans hk)
  rw [el, er]

/-- The linear layer's stored term at (j, q). -/
theorem linear_apply (x0 : Vec Ideal S10000x128 .f32) (x1 : Vec Ideal S128x128 .f32) (x2 : Vec Ideal S1x128 .f32)
    (j : Fin 10000) (q : Fin 128) :
    k0_pay1 (F := Ideal) x0 x1 x2 (ix2 j q) = (∑ d : Fin 128, x0 (ix2 j d) * x1 (ix2 q d)) + x2 (ix2 (0 : Fin 1) q) := by
  unfold k0_pay1
  simp only [shapeCast_self]
  show matmul dot_S10000x128_S128x128_S10000x128_1_1_0_0_n_n none _ _ (constant (F := Ideal) S10000x128 .f32 0x00000000#32) (ix2 j q)
      + broadcastTo S10000x128 x2 broadcasts_S1x128_S10000x128 (ix2 j q) = _
  rw [lin_matmul_apply, broadcastTo_1b_ab_apply]
  rfl

/-! ## The second product: adjacency block [200, 10000] against the carried array [10000, 128] -/

theorem mix_lhs_0 (i : S200x128.Idx) (k : dot_S200x10000_S10000x128_S200x128_1_0_0_1_n_n.contr.Idx) :
    (dot_S200x10000_S10000x128_S200x128_1_0_0_1_n_n.lhsIdx i k 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem mix_lhs_1 (i : S200x128.Idx) (k : dot_S200x10000_S10000x128_S200x128_1_0_0_1_n_n.contr.Idx) :
    (dot_S200x10000_S10000x128_S200x128_1_0_0_1_n_n.lhsIdx i k 1).val = (k ⟨0, by decide⟩).val :=
  dot_S200x10000_S10000x128_S200x128_1_0_0_1_n_n.lhsIdx_val_of_single rfl i k
theorem mix_rhs_0 (i : S200x128.Idx) (k : dot_S200x10000_S10000x128_S200x128_1_0_0_1_n_n.contr.Idx) :
    (dot_S200x10000_S10000x128_S200x128_1_0_0_1_n_n.rhsIdx i k 0).val = (k ⟨0, by decide⟩).val :=
  dot_S200x10000_S10000x128_S200x128_1_0_0_1_n_n.rhsIdx_val_of_single rfl i k
theorem mix_rhs_1 (i : S200x128.Idx) (k : dot_S200x10000_S10000x128_S200x128_1_0_0_1_n_n.contr.Idx) :
    (dot_S200x10000_S10000x128_S200x128_1_0_0_1_n_n.rhsIdx i k 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The second product into a zero accumulator, at (p, q): row p of the block against column q of the carried array. -/
theorem mix_matmul_apply (l : FVec Ideal S200x10000 .bf16) (r : FVec Ideal S10000x128 .bf16) (p : Fin 200) (q : Fin 128) :
    matmul dot_S200x10000_S10000x128_S200x128_1_0_0_1_n_n none l r (constant (F := Ideal) S200x128 .f32 0x00000000#32) (ix2 p q)
      = ∑ j : Fin 10000, l (ix2 p j) * r (ix2 j q) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact mix_lhs_0 _ _
    | ⟨1, _⟩ => exact (mix_lhs_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (mix_rhs_0 _ _).trans hk
    | ⟨1, _⟩ => exact mix_rhs_1 _ _)
  rw [el, er]

/-- The slope is the one entry of its 1 × 1 block. -/
theorem slope_apply (x3 : Vec Ideal S1x1 .f32) :
    extractAt ![0, 0] x3 inpos_S1x1_p0_0 = x3 (ix2 (0 : Fin 1) (0 : Fin 1)) := by
  unfold extractAt
  exact congrArg x3 (funext fun a => Fin.ext (by match a with | ⟨0, _⟩ => rfl | ⟨1, _⟩ => rfl))

/-- The rectified product's stored term at (p, q): the rectifier of the slope's one entry and of row p against
    column q. -/
theorem rectified_apply (x4 : Vec Ideal S200x10000 .f32) (H : Vec Ideal S10000x128 .bf16) (x3 : Vec Ideal S1x1 .f32)
    (p : Fin 200) (q : Fin 128) :
    k0_pay2 (F := Ideal) x4 H x3 (ix2 p q)
      = rectify (x3 (ix2 (0 : Fin 1) (0 : Fin 1))) (∑ j : Fin 10000, x4 (ix2 p j) * H (ix2 j q)) := by
  unfold k0_pay2
  simp only [shapeCast_self]
  have e := mix_matmul_apply (truncf .bf16 x4 bitsLt_bf16_f32) H p q
  unfold rectify
  rw [← show (∑ j : Fin 10000, (truncf .bf16 x4 bitsLt_bf16_f32 : FVec Ideal S200x10000 .bf16) (ix2 p j) * H (ix2 j q))
      = ∑ j : Fin 10000, x4 (ix2 p j) * H (ix2 j q) from rfl, ← e, ← slope_apply x3]
  rfl

end Cert.KernelIdeal.AtIndex
end
-- ==== Proof.KernelPoints.lean ====
/-
  From grid points to the whole output array.

  The grid has 50 points; point t handles rows 200·t … 200·t + 199 of the adjacency and of the output. The three
  resident blocks (features, weights, bias) and the slope are the whole arrays at every point. By induction on the
  point, the carried buffer holds, after EVERY point, the linear layer computed at the first point; so every point's
  output block is the rectified product of its adjacency rows with that one array.
-/
import proofs.«144778_g11579231830147_cont_sun_c4_469_2_alg».proof.Proof.KernelPieces
import proofs.«144778_g11579231830147_cont_sun_c4_469_2_alg».proof.Proof.KernelPayload
import Idealize.ShloMosaic.Lib.StableHlo.Run

set_option maxRecDepth 16384

noncomputable section
open Idealize.ShloMosaic Idealize.ShloMosaic.TcCoe Idealize.SL.Sem
open Idealize.ShloMosaic.Pipeline (Dat)

namespace Cert.KernelIdeal.Points
open Cert.KernelIdeal Cert.KernelIdeal.Gen Cert.KernelIdeal.Carried Idealize.ShloMosaic.ValueIdx
variable {F : FTy → Type} [FloatOps F]
variable (m : (ℓ : Loc nD τ sig) → Buf (Elt F) ℓ)

/-- The first grid point. -/
abbrev first : Fin cfg0.N := ⟨0, by rw [show cfg0.N = 50 from N_0]; decide⟩

/-- The transformed features: the linear layer of the three resident blocks as the first point finds them. -/
def transformed (c : Dev nD) : Vec F S10000x128 .bf16 :=
  k0_pay1 (iblk m c 0 first) (iblk m c 1 first) (iblk m c 2 first)

/-- After every point the carried buffer holds the transformed features: stored at the first point, untouched after. -/
theorem carried_at (c : Dev nD) : ∀ (n : ℕ) (h : n < cfg0.N), (outsAt0 m c n h).2 = transformed m c
  | 0, h => by
    rw [outsAt0_A m c ⟨0, h⟩ rfl]
    dsimp only
    exact carried_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 50 := N_0
    have hB : ¬(⟨n + 1, h⟩ : Fin cfg0.N).val % 50 = 0 := by dsimp only; omega
    rw [outsAt0_B m c ⟨n + 1, h⟩ hB]
    dsimp only [sout0_B_0]
    exact carried_at c n _

/-- Every point's output block is the rectified product of its adjacency block with the transformed features. -/
theorem block_at (c : Dev nD) (t : Fin cfg0.N) :
    (outsAt0 m c t.val t.isLt).1 = k0_pay2 (iblk m c 4 t) (transformed m c) (iblk m c 3 t) := by
  have hN : cfg0.N = 50 := N_0
  by_cases h0 : t.val % 50 = 0
  · obtain rfl : t = first := Fin.ext (by have := t.isLt; show t.val = 0; omega)
    rw [outsAt0_A m c first h0]
    dsimp only
    exact block_first (F := F) c (grid0.coords first) (ms0_0 first) (hs0_0 first) (ms0_1 first) (hs0_1 first) (ms0_2 first) (hs0_2 first) (ms0_3 first) (hs0_3 first) (ms0_4 first) (hs0_4 first) (ms0_5 first) (hs0_5 first) scM0_0 (Memref.isWhole_whole _) ((hcond0_0 first).mpr h0) (iblk m c 0 first) (iblk m c 1 first) (iblk m c 2 first) (iblk m c 3 first) (iblk m c 4 first)
  · rw [outsAt0_B m c t h0]
    dsimp only
    refine (block_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).trans ?_
    rw [carried_at m c (t.val - 1) _]

/-! ## The blocks, read off the arrays as the region finds them -/

/-- The five arrays the region stages, as it finds them, each named at its literal type: the features and the
    adjacency with their leading unit axis dropped, the weights, the bias as a row, the slope as a 1 × 1 array. -/
abbrev featuresIn (c : Dev nD) : Vec F S10000x128 .f32 := V m c main_v0
abbrev weightsIn (c : Dev nD) : Vec F S128x128 .f32 := V m c main_arg2
abbrev biasIn (c : Dev nD) : Vec F S1x128 .f32 := V m c main_v2
abbrev slopeIn (c : Dev nD) : Vec F S1x1 .f32 := V m c main_v3
abbrev adjacencyIn (c : Dev nD) : Vec F S10000x10000 .f32 := V m c main_v1

/-- The printed index maps, decided over the grid: the resident windows sit at block (0, 0) at every point; the
    adjacency's and the output's block row is the point. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block is the whole array. -/
theorem features_read (c : Dev nD) (t : Fin cfg0.N) (j : Fin 10000) (d : Fin 128) :
    (iblk m c 0 t : Vec F S10000x128 .f32) (ix2 j d) = featuresIn m c (ix2 j d) := by
  obtain ⟨e0, e1, -⟩ := index_facts t
  unfold iblk
  rw [View.read_apply]
  show V m c main_v0 _ = V m c main_v0 _
  congr 1
  funext a
  apply Fin.ext
  match a with
  | ⟨0, _⟩ => show win0_0.index t (0 : Fin 2) * 10000 + 1 * j.val = j.val; omega
  | ⟨1, _⟩ => show win0_0.index t (1 : Fin 2) * 128 + 1 * d.val = d.val; omega

/-- The weights' block is the whole array. -/
theorem weights_read (c : Dev nD) (t : Fin cfg0.N) (q : Fin 128) (d : Fin 128) :
    (iblk m c 1 t : Vec F S128x128 .f32) (ix2 q d) = weightsIn m c (ix2 q d) := by
  obtain ⟨-, -, e0, e1, -⟩ := index_facts t
  unfold iblk
  rw [View.read_apply]
  show V m c main_arg2 _ = V m c main_arg2 _
  congr 1
  funext a
  apply Fin.ext
  match a with
  | ⟨0, _⟩ => show win0_1.index t (0 : Fin 2) * 128 + 1 * q.val = q.val; omega
  | ⟨1, _⟩ => show win0_1.index t (1 : Fin 2) * 128 + 1 * d.val = d.val; omega

/-- The bias row's block is the whole row. -/
theorem bias_read (c : Dev nD) (t : Fin cfg0.N) (u : Fin 1) (q : Fin 128) :
    (iblk m c 2 t : Vec F S1x128 .f32) (ix2 u q) = biasIn m c (ix2 u q) := by
  obtain ⟨-, -, -, -, e0, e1, -⟩ := index_facts t
  unfold iblk
  rw [View.read_apply]
  show V m c main_v2 _ = V m c main_v2 _
  congr 1
  funext a
  apply Fin.ext
  match a with
  | ⟨0, _⟩ => show win0_2.index t (0 : Fin 2) * 1 + 1 * u.val = u.val; omega
  | ⟨1, _⟩ => show win0_2.index t (1 : Fin 2) * 128 + 1 * q.val = q.val; omega

/-- The slope's block is its one entry. -/
theorem slope_read (c : Dev nD) (t : Fin cfg0.N) (u v : Fin 1) :
    (iblk m c 3 t : Vec F S1x1 .f32) (ix2 u v) = slopeIn m c (ix2 u v) := by
  obtain ⟨-, -, -, -, -, -, e0, e1, -⟩ := index_facts t
  unfold iblk
  rw [View.read_apply]
  show V m c main_v3 _ = V m c main_v3 _
  congr 1
  funext a
  apply Fin.ext
  match a with
  | ⟨0, _⟩ => show win0_3.index t (0 : Fin 2) * 1 + 1 * u.val = u.val; omega
  | ⟨1, _⟩ => show win0_3.index t (1 : Fin 2) * 1 + 1 * v.val = v.val; omega

/-- Row p of the adjacency's block at point t is row 200·t + p of the adjacency. -/
theorem adjacency_read (c : Dev nD) (t : Fin cfg0.N) (p : Fin 200) (j : Fin 10000) (r : Fin 10000)
    (hr : r.val = 200 * t.val + p.val) :
    (iblk m c 4 t : Vec F S200x10000 .f32) (ix2 p j) = adjacencyIn m c (ix2 r j) := by
  obtain ⟨-, -, -, -, -, -, -, -, e0, e1, -⟩ := index_facts t
  unfold iblk
  rw [View.read_apply]
  show V m c main_v1 _ = V m c main_v1 _
  congr 1
  funext a
  apply Fin.ext
  match a with
  | ⟨0, _⟩ => show win0_4.index t (0 : Fin 2) * 200 + 1 * p.val = r.val; omega
  | ⟨1, _⟩ => show win0_4.index t (1 : Fin 2) * 10000 + 1 * j.val = j.val; omega

end Cert.KernelIdeal.Points
end
-- ==== Proof.KernelArray.lean ====
/-
  The output array, whole, over the extended reals, and the kernel's run read at its result.

  Entry (r, q) of the output array is the layer of Spec.lean over the five arrays as the region finds them: the point
  t = r / 200 writes rows 200·t … 200·t + 199, its block's row p = r - 200·t is row r of the adjacency against the
  transformed features, and the 50 blocks of 200 rows tile the 10000 rows. Around the region the program only
  reshapes: a leading axis of extent one is dropped from the features and the adjacency, added to the bias and the
  slope, and added back to the result — each reshape keeps the row-major position, so it renames indices.
-/
import proofs.«144778_g11579231830147_cont_sun_c4_469_2_alg».proof.Proof.KernelPoints
import Idealize.ShloMosaic.Lib.StableHlo.Run

set_option maxRecDepth 16384

noncomputable section
open Idealize.ShloMosaic Idealize.ShloMosaic.TcCoe Idealize.SL.Sem
open Idealize.ShloMosaic.Pipeline (Dat)

namespace Cert.KernelIdeal.Whole
open Cert.KernelIdeal Cert.KernelIdeal.Gen Cert.KernelIdeal.Points Cert.KernelIdeal.AtIndex Cert.GraphConv
open Idealize.ShloMosaic.ValueIdx
variable (m : (ℓ : Loc nD τ sig) → Buf (Elt Ideal) ℓ) (ρ : Dev nD → PrngReg)

/-- The transformed features at (j, q): the linear layer over the features, weights and bias row as the region finds
    them. -/
theorem transformed_apply (c : Dev nD) (j : Fin 10000) (q : Fin 128) :
    transformed m c (ix2 j q) = feature (fun k d => featuresIn m c (ix2 k d)) (fun o d => weightsIn m c (ix2 o d))
      (fun o => biasIn m c (ix2 (0 : Fin 1) o)) j q := by
  unfold transformed
  refine (linear_apply (iblk m c 0 first) (iblk m c 1 first) (iblk m c 2 first) j q).trans ?_
  unfold feature
  refine congrArg₂ (· + ·) (Finset.sum_congr rfl fun d _ => ?_) (bias_read m c first 0 q)
  rw [features_read m c first j d, weights_read m c first q d]

/-- The output array [10000, 128] as the region leaves it. -/
def out2 (c : Dev nD) : S10000x128.Idx → EReal := fun i =>
  layer (fun r k => adjacencyIn m c (ix2 r k)) (fun k d => featuresIn m c (ix2 k d)) (fun o d => weightsIn m c (ix2 o d))
    (fun o => biasIn m c (ix2 (0 : Fin 1) o)) (slopeIn m c (ix2 (0 : Fin 1) (0 : Fin 1))) (i 0) (i 1)

/-- Entry y of point t's output block is entry (200·t + y₀, y₁) of the output array. -/
theorem block_entry (c : Dev nD) (t : Fin cfg0.N) (y : S200x128.Idx) (r : Fin 10000) (hr : r.val = 200 * t.val + (y 0).val) :
    k0_pay2 (F := Ideal) (iblk m c 4 t) (transformed m c) (iblk m c 3 t) y = out2 m c (ix2 r (y 1)) := by
  obtain ⟨p, q, rfl⟩ : ∃ (p : Fin 200) (q : Fin 128), y = ix2 p q := ⟨y 0, y 1, eq_ix2 y⟩
  refine (rectified_apply (iblk m c 4 t) (transformed m c) (iblk m c 3 t) p q).trans ?_
  show _ = rectify (slopeIn m c (ix2 (0 : Fin 1) (0 : Fin 1))) (∑ j : Fin 10000, adjacencyIn m c (ix2 r j)
      * feature (fun k d => featuresIn m c (ix2 k d)) (fun o d => weightsIn m c (ix2 o d)) (fun o => biasIn m c (ix2 (0 : Fin 1) o)) j q)
  refine congrArg₂ rectify (slope_read m c t 0 0) (Finset.sum_congr rfl fun j _ => ?_)
  rw [adjacency_read m c t p j r hr, transformed_apply m c j q]

/-- What point t writes back is block t of the output array. -/
theorem flushed_eq (c : Dev nD) (t : Fin cfg0.N) :
    (dats m 0 c).flushed 5 t = ((cfg0.win 5).blk t).view.read (Elt Ideal) (out2 m c) := by
  show (cfg0.win 5).cut (grid0.coords t) ((dats m 0 c).after 5 t) = _
  rw [after0_5, block_at]
  obtain ⟨-, -, -, -, -, -, -, -, -, -, e0, e1⟩ := index_facts t
  have hN : cfg0.N = 50 := N_0
  have ht := t.isLt
  funext y
  have hy0 : (y 0).val < 200 := (y 0).isLt
  have hy1 : (y 1).val < 128 := (y 1).isLt
  show k0_pay2 (F := Ideal) (iblk m c 4 t) (transformed m c) (iblk m c 3 t) y = out2 m c (((cfg0.win 5).blk t).view.emb y)
  refine (block_entry m c t y ⟨200 * t.val + (y 0).val, by omega⟩ rfl).trans (congrArg (out2 m c) ?_)
  funext a
  apply Fin.ext
  match a with
  | ⟨0, _⟩ => show 200 * t.val + (y 0).val = win0_5.index t (0 : Fin 2) * 200 + 1 * (y 0).val; omega
  | ⟨1, _⟩ => show (y 1).val = win0_5.index t (1 : Fin 2) * 128 + 1 * (y 1).val; omega

/-- An index of the output array is in point t's block iff each coordinate is in the block's range on its axis. -/
theorem mem_block (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v4).slice (win0_5.rect t)).set ↔ _
  rw [View.set_slice_whole, Rect.mem_set_unit]
  exact Iff.rfl

/-- Every row is in the block of the point its row divided by 200 names. -/
theorem covered (i : S10000x128.Idx) :
    ∃ t : Fin cfg0.N, (cfg0.win 5).flush t = true ∧ i ∈ ((cfg0.win 5).blk t).view.set := by
  have hN : cfg0.N = 50 := N_0
  have hi0 : (i 0).val < 10000 := (i 0).isLt
  have hi1 : (i 1).val < 128 := (i 1).isLt
  obtain ⟨t, ht⟩ : ∃ t : Fin cfg0.N, t.val = (i 0).val / 200 := ⟨⟨(i 0).val / 200, by omega⟩, rfl⟩
  obtain ⟨-, -, -, -, -, -, -, -, -, -, e0, e1⟩ := index_facts t
  refine ⟨t, flush0_5 t, ?_⟩
  rw [mem_block]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 128 ≤ (i 1).val ∧ (i 1).val < win0_5.index t (1 : Fin 2) * 128 + 128; omega

/-- After the last point the output array holds the layer, entry by entry. -/
theorem final (c : Dev nD) : (dats m 0 c).arrAt 5 cfg0.N = out2 m c :=
  (dats m 0 c).arrAt_eq_of_cover 5 (out2 m c) (fun t _ => flushed_eq m c t) covered

/-! ## The reshapes before the region -/

theorem features_entry (c : Dev nD) : featuresIn m c
    = shapeCast S10000x128 (m ((c : Thread nD τ).loc main_arg0)) shapeCasts_S1x10000x128_S10000x128 := by
  show StableHlo.after hostOps0 (fun b => m (c, b)) (Proc.devRef .tc main_v0) = _
  after_results
  rfl
theorem adjacency_entry (c : Dev nD) : adjacencyIn m c
    = shapeCast S10000x10000 (m ((c : Thread nD τ).loc main_arg1)) shapeCasts_S1x10000x10000_S10000x10000 := by
  show StableHlo.after hostOps0 (fun b => m (c, b)) (Proc.devRef .tc main_v1) = _
  after_results
  rfl
theorem bias_entry (c : Dev nD) : biasIn m c
    = shapeCast S1x128 (m ((c : Thread nD τ).loc main_arg3)) shapeCasts_S128_S1x128 := by
  show StableHlo.after hostOps0 (fun b => m (c, b)) (Proc.devRef .tc main_v2) = _
  after_results
  rfl
theorem slope_entry (c : Dev nD) : slopeIn m c
    = shapeCast S1x1 (m ((c : Thread nD τ).loc main_arg4)) shapeCasts_S1_S1x1 := by
  show StableHlo.after hostOps0 (fun b => m (c, b)) (Proc.devRef .tc main_v3) = _
  after_results
  rfl

theorem weights_entry (c : Dev nD) : weightsIn m c = m ((c : Thread nD τ).loc main_arg2) := V_main_arg2 m c

/-- The output array is the layer of the five ARGUMENTS: each reshape read at an index. -/
theorem out2_eq (c : Dev nD) (n : Fin 10000) (q : Fin 128) :
    out2 m c (ix2 n q) = result (m ((c : Thread nD τ).loc main_arg0)) (m ((c : Thread nD τ).loc main_arg1))
      (m ((c : Thread nD τ).loc main_arg2)) (m ((c : Thread nD τ).loc main_arg3)) (m ((c : Thread nD τ).loc main_arg4))
      (ix3 (0 : Fin 1) n q) := by
  have hA : (fun (r k : Fin 10000) => adjacencyIn m c (ix2 r k)) = fun r k => m ((c : Thread nD τ).loc main_arg1) (ix3 (0 : Fin 1) r k) := by
    funext r k; rw [adjacency_entry m c]; exact shapeCast_1ab_ab_apply _ _ r k
  have hS : (fun (k : Fin 10000) (d : Fin 128) => featuresIn m c (ix2 k d)) = fun k d => m ((c : Thread nD τ).loc main_arg0) (ix3 (0 : Fin 1) k d) := by
    funext k d; rw [features_entry m c]; exact shapeCast_1ab_ab_apply _ _ k d
  have hW : (fun (o d : Fin 128) => weightsIn m c (ix2 o d)) = fun o d => m ((c : Thread nD τ).loc main_arg2) (ix2 o d) := by
    funext o d; rw [weights_entry m c]
  have hb : (fun (o : Fin 128) => biasIn m c (ix2 (0 : Fin 1) o)) = fun o => m ((c : Thread nD τ).loc main_arg3) (ix1 o) := by
    funext o; rw [bias_entry m c]; exact shapeCast_a_1a_apply _ _ 0 o
  have ha : slopeIn m c (ix2 (0 : Fin 1) (0 : Fin 1)) = m ((c : Thread nD τ).loc main_arg4) (ix1 (0 : Fin 1)) := by
    rw [slope_entry m c]; exact shapeCast_a_1a_apply _ _ 0 0
  show layer _ _ _ _ _ n q = layer _ _ _ _ _ n q
  rw [hA, hS, hW, hb, ha]

/-! ## The reshape after the region, and the run -/

/-- The region leaves the output array at the layer. -/
theorem region_out (c : Dev nD) :
    (Pipeline.withArrays (cfgs 0).spec c (V0 m c) (fun w => (dats m 0 c).arrAt w (cfgs 0).N) (Proc.devRef .tc main_v4) : S10000x128.Idx → EReal)
      = out2 m c :=
  (Pipeline.withArrays_arr spec0 launch0.win.arr_inj c _ _ 5).trans (final m c)

/-- The result buffer ends at the layer of the five arguments. -/
theorem result_entry (c : Dev nD) :
    Pipeline.afterTail₀ cfgs (dats m) 0 (V0 m) [hostOps1] c main_v5
      = result (m ((c : Thread nD τ).loc main_arg0)) (m ((c : Thread nD τ).loc main_arg1))
        (m ((c : Thread nD τ).loc main_arg2)) (m ((c : Thread nD τ).loc main_arg3)) (m ((c : Thread nD τ).loc main_arg4)) := by
  unfold Pipeline.afterTail₀
  show StableHlo.after hostOps1 _ (Proc.devRef .tc main_v5) = _
  after_results
  funext i
  obtain ⟨u, n, q, rfl⟩ : ∃ (u : Fin 1) (n : Fin 10000) (q : Fin 128), i = ix3 u n q := ⟨i 0, i 1, i 2, eq_ix3 i⟩
  obtain rfl : u = 0 := Subsingleton.elim _ _
  show shapeCast S1x10000x128 (Pipeline.withArrays (cfgs 0).spec c (V0 m c) (fun w => (dats m 0 c).arrAt w (cfgs 0).N) (Proc.devRef .tc main_v4) : S10000x128.Idx → EReal) shapeCasts_S10000x128_S1x10000x128 (ix3 (0 : Fin 1) n q) = _
  rw [shapeCast_ab_1ab_apply, region_out]
  exact out2_eq m c n q

/-- The kernel's run, read: every weakly fair execution ends with the result buffer at the layer of the five
    arguments, and the arguments as they were. -/
theorem run : θ_run defs (onTc (τ := τ) (main (F := Ideal))) ⟨m, fun _ => 0, ρ⟩ fun r => ∀ c : Dev nD,
      r.2.mem ((c.tc : Thread nD τ).loc main_v5) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v5 (Pipeline.mem_restRefs_of main_v5 (by decide) (by decide))).trans (result_entry m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Whole
end
-- ==== Proof.lean ====
/-
  One graph-convolution layer, out = rectify_a (A · (S · Wᵀ + b)): the kernel against its reference, over the
  extended reals.

  Both sides are the same expression with the same grouping (Proof/Spec.lean): the linear layer
  feature j q = Σ_d S j d · W q d + b q, the mixing Σ_j A i j · feature j q, and the parametric rectifier
  (o where o ≥ 0, else a · o). The kernel computes the linear layer once, at the first of 50 grid points, keeps it
  in a buffer carried across the points, and at point t multiplies rows 200·t … 200·t + 199 of A against it; the
  reference multiplies all rows at once. Entry (i, q) depends on row i of A only, so the two agree entry by entry, and
  no algebraic law beyond reading both matrix products as sums over the contracted index is used: in particular the
  finiteness of the inputs is never needed. The kernel's changes of float format are the identity on the extended
  reals, and the pass that idealizes the kernel rewrote nothing, so that conjunct is trivial.

  The modules: Spec (the expression), RefSide (the reference is it), KernelPieces (what one grid point leaves),
  KernelPayload (the two stored terms at an index), KernelPoints (induction over the points; the blocks read off the
  arrays), KernelArray (the blocks tile the output; the reshapes around the region; the run).
-/
import proofs.«144778_g11579231830147_cont_sun_c4_469_2_alg».proof.Defs
import proofs.«144778_g11579231830147_cont_sun_c4_469_2_alg».proof.Proof.Gen.Kernel
import proofs.«144778_g11579231830147_cont_sun_c4_469_2_alg».proof.Proof.Gen.Kernel.Skeleton
import proofs.«144778_g11579231830147_cont_sun_c4_469_2_alg».proof.Proof.Gen.Kernel.Launch
import proofs.«144778_g11579231830147_cont_sun_c4_469_2_alg».proof.Proof.Gen.Kernel.Points
import proofs.«144778_g11579231830147_cont_sun_c4_469_2_alg».proof.Proof.Gen.Kernel.Frame
import proofs.«144778_g11579231830147_cont_sun_c4_469_2_alg».proof.Proof.Gen.KernelIdeal
import proofs.«144778_g11579231830147_cont_sun_c4_469_2_alg».proof.Proof.Gen.KernelIdeal.Skeleton
import proofs.«144778_g11579231830147_cont_sun_c4_469_2_alg».proof.Proof.Gen.KernelIdeal.Launch
import proofs.«144778_g11579231830147_cont_sun_c4_469_2_alg».proof.Proof.Gen.KernelIdeal.Points
import proofs.«144778_g11579231830147_cont_sun_c4_469_2_alg».proof.Proof.Gen.KernelIdeal.Frame
import proofs.«144778_g11579231830147_cont_sun_c4_469_2_alg».proof.Proof.Gen.ReferenceIdeal
import proofs.«144778_g11579231830147_cont_sun_c4_469_2_alg».proof.Proof.Gen.ReferenceIdeal.Run
import proofs.«144778_g11579231830147_cont_sun_c4_469_2_alg».proof.Proof.Gen.ReferenceIdeal.Read
import proofs.«144778_g11579231830147_cont_sun_c4_469_2_alg».proof.Proof.Gen.Pre_finite_inputs
import proofs.«144778_g11579231830147_cont_sun_c4_469_2_alg».proof.Proof.RefSide
import proofs.«144778_g11579231830147_cont_sun_c4_469_2_alg».proof.Proof.KernelArray
import Idealize.ShloMosaic.Adequacy
import Idealize.ShloMosaic.Init

noncomputable section

namespace Cert.Proof

open Idealize.ShloMosaic Idealize.ShloMosaic.TcCoe Idealize.SL.Sem

/-- The reference runs, and its arguments end unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result buffer at the layer of those
    arguments. -/
theorem algebraic : Cert.algebraic_KernelIdeal_ReferenceIdeal := by
  intro m ρ m' ρ' _ hagree
  refine ⟨fun c => Cert.GraphConv.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.AtIndex.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
